-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x256x256 : Shape := ⟨4, ![16, 64, 256, 256]⟩
abbrev S256x256 : Shape := ⟨2, ![256, 256]⟩
abbrev S_ : Shape := ⟨0, ![]⟩

class Facts : Prop where
  bcast_S_S16x64x256x256 : S_.BroadcastsInDim S16x64x256x256 (![] : Fin 0 → Fin S16x64x256x256.rank)
  reducesTo_S16x64x256x256_S_d0_1_2_3 : S16x64x256x256.ReducesTo [0, 1, 2, 3] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S16x64x256x256 .f32) (main_arg1 : FVec F S256x256 .f32) : IVec S_ 1 :=
  let main_v0 : FVec F S16x64x256x256 .f32 := Host.absf main_arg0
  let main_cst : FVec F S_ .f32 := constant S_ .f32 0x7F800000#32
  let main_v1 : FVec F S16x64x256x256 .f32 := broadcastInDim S16x64x256x256 ![] bcast_S_S16x64x256x256 main_cst
  let main_v2 : IVec S16x64x256x256 1 := cmpf .olt main_v0 main_v1
  let main_c : IVec S_ 1 := constantI S_ 1 1#1
  let main_v3 : IVec S_ 1 := (fun x v => Host.reduce IntOp.andi x v reducesTo_S16x64x256x256_S_d0_1_2_3 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  main_v8
-- ==== Kernel.lean ====
abbrev S16x64x256x256 : Shape := ⟨4, ![16, 64, 256, 256]⟩
abbrev S256x256 : Shape := ⟨2, ![256, 256]⟩
abbrev S262144x256 : Shape := ⟨2, ![262144, 256]⟩
abbrev S4096x256 : Shape := ⟨2, ![4096, 256]⟩
abbrev S16x256x64x256 : Shape := ⟨4, ![16, 256, 64, 256]⟩
abbrev S16x256x16384 : Shape := ⟨3, ![16, 256, 16384]⟩
abbrev S16x64x128x128 : Shape := ⟨4, ![16, 64, 128, 128]⟩

abbrev nBuf : Space → Nat
  | .hbm => 10
  | .vmem => 5
  | .smem => 0
  | _ => 0

abbrev bufTy : (tb : Table) → Fin (tcTables nBuf tb) → BufTy
  | .hbm, ⟨0, _⟩ => ⟨S16x64x256x256, .f32⟩
  | .hbm, ⟨1, _⟩ => ⟨S256x256, .f32⟩
  | .hbm, ⟨2, _⟩ => ⟨S262144x256, .f32⟩
  | .hbm, ⟨3, _⟩ => ⟨S256x256, .bf16⟩
  | .hbm, ⟨4, _⟩ => ⟨S262144x256, .f32⟩
  | .hbm, ⟨5, _⟩ => ⟨S16x64x256x256, .f32⟩
  | .hbm, ⟨6, _⟩ => ⟨S16x256x64x256, .f32⟩
  | .hbm, ⟨7, _⟩ => ⟨S16x256x16384, .f32⟩
  | .hbm, ⟨8, _⟩ => ⟨S16x64x256x256, .f32⟩
  | .hbm, ⟨9, _⟩ => ⟨S16x64x128x128, .f32⟩
  | .local _ .vmem, ⟨0, _⟩ => ⟨S4096x256, .f32⟩
  | .local _ .vmem, ⟨1, _⟩ => ⟨S4096x256, .f32⟩
  | .local _ .vmem, ⟨2, _⟩ => ⟨S256x256, .bf16⟩
  | .local _ .vmem, ⟨3, _⟩ => ⟨S4096x256, .f32⟩
  | .local _ .vmem, ⟨4, _⟩ => ⟨S4096x256, .f32⟩
  | _, _ => ⟨S16x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16x64x256x256_S262144x256 : S16x64x256x256.ShapeCasts S262144x256
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S262144x256_S16x64x256x256 : S262144x256.ShapeCasts S16x64x256x256
  transposes_S16x64x256x256_S16x256x64x256_0_2_1_3 : S16x64x256x256.Transposes [0, 2, 1, 3] S16x256x64x256
  shapeCasts_S16x256x64x256_S16x256x16384 : S16x256x64x256.ShapeCasts S16x256x16384
  shapeCasts_S16x256x16384_S16x64x256x256 : S16x256x16384.ShapeCasts S16x64x256x256
  slices_S16x64x256x256_S16x64x128x128_0_0_0_0 : S16x64x256x256.Slices ![0, 0, 0, 0] S16x64x128x128
  dot_S4096x256_S256x256_S4096x256_1_0_0_1_n_n_wf : DotDims.WF S4096x256 S256x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S262144x256.size a
  hwx0_0 : ∀ i : grid0.Coords, EltTy.bits .f32 = 32 ∨ (Rect.block (s := S262144x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S262144x256.size a
  hwx0_2 : ∀ i : grid0.Coords, EltTy.bits .f32 = 32 ∨ (Rect.block (s := S262144x256) S4096x256.size (cc0_transform_2 i) (hinb0_2 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_v0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x64x256x256 : Shape := ⟨4, ![16, 64, 256, 256]⟩
abbrev S256x256 : Shape := ⟨2, ![256, 256]⟩
abbrev S_ : Shape := ⟨0, ![]⟩
abbrev S16x256x64x256 : Shape := ⟨4, ![16, 256, 64, 256]⟩
abbrev S16x256x16384 : Shape := ⟨3, ![16, 256, 16384]⟩
abbrev S16x64x128x128 : Shape := ⟨4, ![16, 64, 128, 128]⟩

abbrev nBuf : Space → Nat
  | .hbm => 18
  | .vmem => 0
  | .smem => 0
  | _ => 0

abbrev bufTy : (tb : Table) → Fin (tcTables nBuf tb) → BufTy
  | .hbm, ⟨0, _⟩ => ⟨S16x64x256x256, .f32⟩
  | .hbm, ⟨1, _⟩ => ⟨S256x256, .f32⟩
  | .hbm, ⟨2, _⟩ => ⟨S16x64x256x256, .f32⟩
  | .hbm, ⟨3, _⟩ => ⟨S_, .f32⟩
  | .hbm, ⟨4, _⟩ => ⟨S16x64x256x256, .f32⟩
  | .hbm, ⟨5, _⟩ => ⟨S16x64x256x256, .f32⟩
  | .hbm, ⟨6, _⟩ => ⟨S16x64x256x256, .f32⟩
  | .hbm, ⟨7, _⟩ => ⟨S_, .f32⟩
  | .hbm, ⟨8, _⟩ => ⟨S16x64x256x256, .f32⟩
  | .hbm, ⟨9, _⟩ => ⟨S16x64x256x256, .f32⟩
  | .hbm, ⟨10, _⟩ => ⟨S16x64x256x256, .f32⟩
  | .hbm, ⟨11, _⟩ => ⟨S16x64x256x256, .f32⟩
  | .hbm, ⟨12, _⟩ => ⟨S256x256, .f32⟩
  | .hbm, ⟨13, _⟩ => ⟨S16x64x256x256, .f32⟩
  | .hbm, ⟨14, _⟩ => ⟨S16x256x64x256, .f32⟩
  | .hbm, ⟨15, _⟩ => ⟨S16x256x16384, .f32⟩
  | .hbm, ⟨16, _⟩ => ⟨S16x64x256x256, .f32⟩
  | .hbm, ⟨17, _⟩ => ⟨S16x64x128x128, .f32⟩
  | _, _ => ⟨S16x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]

class Facts₀ : Prop where
  bcast_S_S16x64x256x256 : S_.BroadcastsInDim S16x64x256x256 (![] : Fin 0 → Fin S16x64x256x256.rank)
  transposes_S16x64x256x256_S16x256x64x256_0_2_1_3 : S16x64x256x256.Transposes [0, 2, 1, 3] S16x256x64x256
  shapeCasts_S16x256x64x256_S16x256x16384 : S16x256x64x256.ShapeCasts S16x256x16384
  shapeCasts_S16x256x16384_S16x64x256x256 : S16x256x16384.ShapeCasts S16x64x256x256
  slices_S16x64x256x256_S16x64x128x128_0_0_0_0 : S16x64x256x256.Slices ![0, 0, 0, 0] S16x64x128x128
  dot_S256x256_S256x256_S256x256_0_1_1_0_n_n_wf : DotDims.WF S256x256 S256x256 S256x256 [0] [1] [1] [0] [] []
  dot_S16x64x256x256_S256x256_S16x64x256x256_3_1_012_0_n_n_wf : DotDims.WF S16x64x256x256 S256x256 S16x64x256x256 [3] [1] [0, 1, 2] [0] [] []

variable [Facts₀]

def dot_S256x256_S256x256_S256x256_0_1_1_0_n_n : DotDims S256x256 S256x256 S256x256 where
  lhsContracting := [0]
  rhsContracting := [1]
  lhsNonContracting := [1]
  rhsNonContracting := [0]
  lhsBatch := []
  rhsBatch := []
  wf := dot_S256x256_S256x256_S256x256_0_1_1_0_n_n_wf
def dot_S16x64x256x256_S256x256_S16x64x256x256_3_1_012_0_n_n : DotDims S16x64x256x256 S256x256 S16x64x256x256 where
  lhsContracting := [3]
  rhsContracting := [1]
  lhsNonContracting := [0, 1, 2]
  rhsNonContracting := [0]
  lhsBatch := []
  rhsBatch := []
  wf := dot_S16x64x256x256_S256x256_S16x64x256x256_3_1_012_0_n_n_wf

class Facts : Prop extends Facts₀ where

variable [Facts]
-- ==== Proof.Payload.lean ====
/-
  What one grid point computes: the body's one stored value at an index of its block.

  The body loads a block `x` of 4096 rows of the flattened input and the whole 256 × 256 matrix `h`,
  multiplies `x` by `h` into a zero accumulator, and multiplies the result by `h` again into a zero accumulator.
  At the ideal instance the two narrowings to bf16 between the steps are the identity and a matrix product
  into zero is the plain sum over the contracted axis, so at row `p` and column `q` of the block the stored
  value is   ∑ k, (∑ m, x (p, m) * h (m, k)) * h (k, q).
-/
import proofs.«136611_j31817117729481_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.HaarValue

open Idealize.ShloMosaic Idealize.ShloMosaic.ValueIdx Cert.KernelIdeal Cert.KernelIdeal.Gen

/-! ## The product's operand indices, axis by axis

The dot contracts the left operand's axis 1 with the right operand's axis 0; the left's axis 0 and the right's
axis 1 are the result's two axes. -/

theorem lhs_axis0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem lhs_axis1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
theorem rhs_axis0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
theorem rhs_axis1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

/-- A [4096, 256] × [256, 256] product into the zero accumulator, at row `p` and column `q`: the sum over the
    256 contracted coordinates of the left operand's row times the right operand's column. -/
theorem matmul_zero_at {φ₁ φ₂ : FTy} (a : FVec Ideal S4096x256 φ₁) (b : FVec Ideal S256x256 φ₂) (p : Fin 4096) (q : Fin 256) :
    matmul dot_S4096x256_S256x256_S4096x256_1_0_0_1_n_n none a b (constant S4096x256 .f32 0x00000000#32) (ix2 p q)
      = ∑ k : Fin 256, a (ix2 p k) * b (ix2 k q) := by
  simp only [matmul]
  rw [Ideal.matmul_constant_zero_apply, ← Equiv.sum_comp (contrEquiv1 dot_S4096x256_S256x256_S4096x256_1_0_0_1_n_n 256 rfl rfl).symm]
  refine Finset.sum_congr rfl fun k _ => ?_
  have hk := contrEquiv1_symm_val dot_S4096x256_S256x256_S4096x256_1_0_0_1_n_n 256 rfl rfl k
  have el : dot_S4096x256_S256x256_S4096x256_1_0_0_1_n_n.lhsIdx (ix2 p q) ((contrEquiv1 dot_S4096x256_S256x256_S4096x256_1_0_0_1_n_n 256 rfl rfl).symm k) = ix2 p k := funext fun a => Fin.ext (by
    match a with
    | ⟨0, _⟩ => exact lhs_axis0 _ _
    | ⟨1, _⟩ => exact (lhs_axis1 _ _).trans hk)
  have er : dot_S4096x256_S256x256_S4096x256_1_0_0_1_n_n.rhsIdx (ix2 p q) ((contrEquiv1 dot_S4096x256_S256x256_S4096x256_1_0_0_1_n_n 256 rfl rfl).symm k) = ix2 k q := funext fun a => Fin.ext (by
    match a with
    | ⟨0, _⟩ => exact (rhs_axis0 _ _).trans hk
    | ⟨1, _⟩ => exact rhs_axis1 _ _)
  rw [el, er]

/-- The stored value is the second product over the first: the casts to the block's own shape are the
    identity, and so, at the ideal instance, are the two narrowings to bf16. -/
theorem pay_eq (x : FVec Ideal S4096x256 .f32) (h : FVec Ideal S256x256 .bf16) :
    k0_pay1 (F := Ideal) x h
      = matmul (φ₁ := .f32) (φ₂ := .bf16) dot_S4096x256_S256x256_S4096x256_1_0_0_1_n_n none
          (matmul (φ₁ := .f32) (φ₂ := .bf16) dot_S4096x256_S256x256_S4096x256_1_0_0_1_n_n none x h (constant S4096x256 .f32 0x00000000#32))
          h (constant S4096x256 .f32 0x00000000#32) := by
  unfold k0_pay1
  simp only [shapeCast_self]
  rfl

/-- THE STORED VALUE AT AN INDEX of the block: `(x · h) · h` at row `y 0`, column `y 1`. -/
theorem pay_at (x : FVec Ideal S4096x256 .f32) (h : FVec Ideal S256x256 .bf16) (y : S4096x256.Idx) :
    k0_pay1 (F := Ideal) x h y
      = ∑ k : Fin 256, (∑ mm : Fin 256, x (ix2 (y 0) mm) * h (ix2 mm k)) * h (ix2 k (y 1)) := by
  obtain ⟨p, q, rfl⟩ : ∃ (p : Fin 4096) (q : Fin 256), y = ix2 p q := ⟨y 0, y 1, eq_ix2 y⟩
  rw [pay_eq, matmul_zero_at]
  refine Finset.sum_congr rfl fun k _ => ?_
  rw [matmul_zero_at]

end Cert.KernelIdeal.HaarValue

end
-- ==== Proof.RealLaw.lean ====
/-
  The arithmetic that joins the two programs, over the extended reals, with no program in sight.

  The kernel multiplies a row `x` by a square matrix `h` and the product by `h` again:
      out j = ∑ k, (∑ m, x m * h m k) * h k j.
  The reference first multiplies every entry of `x` by the quotient `(|x| + 1) / (|x| + 1)`, forms the
  square of the matrix once, and multiplies the row by that square:
      ref j = ∑ m, (x m * ((|x m| + 1) / (|x m| + 1))) * ∑ k, h k j * h m k.
  On the extended reals neither distributivity nor the cancelling quotient holds at an infinity, so both
  are stated for entries that are real numbers: there the quotient is `1`, and the two sums are one double
  sum over `(m, k)` of `x m * h m k * h k j`, taken in the two orders.
-/
import Idealize.ShloMosaic.PureOps.Ideal.Laws
import Idealize.ShloMosaic.Lib.IdealHost

open Idealize.ShloMosaic

namespace Cert.HaarLaw

/-- The coercion of the reals into the extended reals commutes with a finite sum. -/
theorem coe_sum {ι : Type} (s : Finset ι) (f : ι → ℝ) :
    ((∑ i ∈ s, f i : ℝ) : EReal) = ∑ i ∈ s, ((f i : ℝ) : EReal) := by
  classical
  refine Finset.induction_on s (by simp) ?_
  intro a s ha ih
  rw [Finset.sum_insert ha, Finset.sum_insert ha, EReal.coe_add, ih]

/-- On a real `r` the quotient `(|r| + 1) / (|r| + 1)` is `1` (the divisor is at least `1`, so it is no
    zero and no infinity), and `r` times it is `r`. The absolute value is written `max r (-r)`, as the
    ideal instance defines it. -/
theorem mul_unit_quotient (r : ℝ) :
    (r : EReal) * Ideal.div (max (r : EReal) (-(r : EReal)) + 1) (max (r : EReal) (-(r : EReal)) + 1) = (r : EReal) := by
  have h : max (r : EReal) (-(r : EReal)) + 1 = ((|r| + 1 : ℝ) : EReal) := by
    have hm : ((max r (-r) : ℝ) : EReal) = max (r : EReal) ((-r : ℝ) : EReal) :=
      EReal.coe_strictMono.monotone.map_max
    rw [EReal.coe_add, EReal.coe_one, abs_eq_max_neg, hm, EReal.coe_neg]
  have hy : (|r| + 1 : ℝ) ≠ 0 := by positivity
  rw [h, Ideal.div_coe hy, ← EReal.coe_mul, mul_one_div_cancel hy, EReal.coe_one, mul_one]

/-- Two products by the same matrix, re-associated: over real entries, `(x · h) · h` at `j` is `x` times
    the square of `h`, the square summed in the reference's order of factors. -/
theorem assoc_real {n : Nat} (x : Fin n → ℝ) (h : Fin n → Fin n → ℝ) (j : Fin n) :
    ∑ k : Fin n, (∑ m : Fin n, (x m : EReal) * (h m k : EReal)) * (h k j : EReal)
      = ∑ m : Fin n, (x m : EReal) * ∑ k : Fin n, (h k j : EReal) * (h m k : EReal) := by
  simp only [← EReal.coe_mul, ← coe_sum]
  refine congrArg _ ?_
  simp only [Finset.sum_mul, Finset.mul_sum]
  rw [Finset.sum_comm]
  exact Finset.sum_congr rfl fun m _ => Finset.sum_congr rfl fun k _ => by ring

/-- THE LAW between the kernel's row and the reference's: for a row and a matrix of real entries, the
    kernel's `(x · h) · h` at `j` is the reference's `(x · (|x|+1)/(|x|+1)) · (h · h)` at `j`. -/
theorem haar_law {n : Nat} (X : Fin n → EReal) (H : Fin n → Fin n → EReal)
    (hX : ∀ m, ∃ r : ℝ, X m = (r : EReal)) (hH : ∀ a b, ∃ r : ℝ, H a b = (r : EReal)) (j : Fin n) :
    ∑ k : Fin n, (∑ m : Fin n, X m * H m k) * H k j
      = ∑ m : Fin n, (X m * Ideal.div (max (X m) (-(X m)) + 1) (max (X m) (-(X m)) + 1)) * ∑ k : Fin n, H k j * H m k := by
  choose x hx using hX
  choose h hh using hH
  simp only [hx, hh, mul_unit_quotient]
  exact assoc_real x h j

end Cert.HaarLaw
-- ==== Proof.Spec.lean ====
/-
  The specification, over literal shapes and with no program in sight.

  `result x h` is the array both programs compute before their common re-layout: for a batch index (b, c), a row i
  and a column j,
      result x h (b, c, i, j) = ∑ k, (∑ m, x (b, c, i, m) * h (m, k)) * h (k, j),
  the row `x (b, c, i, ·)` multiplied by `h` twice. `relayout` is the re-layout both programs end with: the two
  middle axes exchanged, the array flattened to [16, 256, 16384], cut again as [16, 64, 256, 256] (which mixes
  channels and rows), and the top-left 128 × 128 quadrant of every matrix kept. Both programs apply it to
  `result x h`, so it is never opened.
-/
import proofs.«136611_j31817117729481_1_alg».proof.Proof.RealLaw
import Idealize.ShloMosaic.Lib.ValueIdx

noncomputable section

namespace Cert.HaarSpec

open Idealize.ShloMosaic Idealize.ShloMosaic.ValueIdx

abbrev SX : Shape := ⟨4, ![16, 64, 256, 256]⟩
abbrev SH : Shape := ⟨2, ![256, 256]⟩
abbrev ST : Shape := ⟨4, ![16, 256, 64, 256]⟩
abbrev SF : Shape := ⟨3, ![16, 256, 16384]⟩
abbrev SR : Shape := ⟨4, ![16, 64, 128, 128]⟩

/-- Every matrix of `x` multiplied by `h` twice, in the kernel's order of the two products. -/
def result (x : FVec Ideal SX .f32) (h : FVec Ideal SH .f32) : FVec Ideal SX .f32 := fun i =>
  ∑ k : Fin 256, (∑ mm : Fin 256, x (ix4 (i 0) (i 1) (i 2) mm) * h (ix2 mm k)) * h (ix2 k (i 3))

/-- The re-layout both programs end with. -/
def relayout (ht : SX.Transposes [0, 2, 1, 3] ST) (hf : ST.ShapeCasts SF) (hc : SF.ShapeCasts SX)
    (hs : SX.Slices ![0, 0, 0, 0] SR) (a : FVec Ideal SX .f32) : FVec Ideal SR .f32 :=
  extractStridedSlice SR ![0, 0, 0, 0] (shapeCast SX (shapeCast SF (transpose ST [0, 2, 1, 3] a ht) hf) hc) hs

/-- The reference's order of the same arithmetic at an index: the entry of `x` times the quotient
    `(|x| + 1) / (|x| + 1)`, times the square of `h` formed once. For real entries it is `result`. -/
theorem reference_at (x : FVec Ideal SX .f32) (h : FVec Ideal SH .f32)
    (hx : ∀ i, ∃ r : ℝ, x i = (r : EReal)) (hh : ∀ i, ∃ r : ℝ, h i = (r : EReal)) (i : SX.Idx) :
    ∑ mm : Fin 256, (x (ix4 (i 0) (i 1) (i 2) mm)
          * Ideal.div (max (x (ix4 (i 0) (i 1) (i 2) mm)) (-(x (ix4 (i 0) (i 1) (i 2) mm))) + 1)
              (max (x (ix4 (i 0) (i 1) (i 2) mm)) (-(x (ix4 (i 0) (i 1) (i 2) mm))) + 1))
        * ∑ k : Fin 256, h (ix2 k (i 3)) * h (ix2 mm k)
      = result x h i :=
  (Cert.HaarLaw.haar_law (fun mm => x (ix4 (i 0) (i 1) (i 2) mm)) (fun a b => h (ix2 a b))
    (fun mm => hx _) (fun a b => hh _) (i 3)).symm

/-- An extended real whose absolute value is below `+∞` — the pattern `0x7F800000` — is a real number. -/
theorem real_of_abs_lt_inf (a : EReal)
    (e : Ideal.cmp .olt (max a (-a)) (Ideal.ofBits .f32 0x7F800000#32) = 1#1) : ∃ r : ℝ, a = (r : EReal) := by
  have htop : Ideal.ofBits .f32 0x7F800000#32 = ⊤ := by simp [Ideal.ofBits, Ideal.ieee]
  rw [htop] at e
  unfold Ideal.cmp at e
  induction a using EReal.rec with
  | bot => simp at e
  | top => simp at e
  | coe r => exact ⟨r, rfl⟩

end Cert.HaarSpec

end
-- ==== Proof.KernelArray.lean ====
/-
  From the blocks to the array, and through the host lines after the region.

  The grid has 64 points; point `t` reads rows 4096·t … 4096·t + 4095 of the flattened input (all 256 columns) and the
  whole matrix, and writes the same rows of the flattened output. So the output array ends holding, at row `r` and
  column `q`, the row `r` of the flattened input multiplied by the matrix twice (`rows`): every index lies in the block
  of the point `r / 4096`. The host lines after the region cut the 262144 rows back into [16, 64, 256] and apply the
  common re-layout; read at an index, the flattened row (b·64 + c)·256 + i is the row `i` of matrix (b, c), so what is
  re-laid is `HaarSpec.result` of the two argument arrays.
-/
import proofs.«136611_j31817117729481_1_alg».proof.Proof.Gen.KernelIdeal.Frame
import proofs.«136611_j31817117729481_1_alg».proof.Proof.Payload
import proofs.«136611_j31817117729481_1_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.HaarValue

open Idealize.ShloMosaic Idealize.ShloMosaic.TcCoe Idealize.ShloMosaic.ValueIdx Idealize.ShloMosaic.Tactic
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The flattened output: row `i 0` of the flattened input times the matrix, times the matrix. -/
def rows (X : FVec Ideal S262144x256 .f32) (H : FVec Ideal S256x256 .bf16) : FVec Ideal S262144x256 .f32 := fun i =>
  ∑ k : Fin 256, (∑ mm : Fin 256, X (ix2 (i 0) mm) * H (ix2 mm k)) * H (ix2 k (i 1))

/-- The printed index maps over the grid: the input's block moves with the output's along the rows, the matrix's
    block never moves, and the output's block index along the rows is the point itself. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- WHAT POINT `t` WRITES BACK is block `t` of `rows` of the two arrays the region stages. -/
theorem flushed_eq (c : Dev nD) (t : Fin cfg0.N) :
    (dats m 0 c).flushed 2 t = ((cfg0.win 2).blk t).view.read (Elt Ideal) (rows (V m c main_v0) (V m c main_v1)) := by
  show (cfg0.win 2).cut (grid0.coords t) ((dats m 0 c).after 2 t) = _
  rw [after0_2]
  unfold out0_2
  rw [View.canon_unit_zero hz]
  simp only [View.ld_unit_zero (S := S4096x256) hz, View.ld_unit_zero (S := S256x256) hz]
  obtain ⟨e0, e1, e2, e3, e4, e5⟩ := idx_facts t
  funext j
  refine (pay_at (iblk m c 0 t) (iblk m c 1 t) j).trans ?_
  show _ = rows (V m c main_v0) (V m c main_v1) (((cfg0.win 2).blk t).view.emb j)
  unfold rows
  have hx : ∀ mm : Fin 256, iblk m c 0 t (ix2 (j 0) mm)
      = V m c main_v0 (ix2 ((((cfg0.win 2).blk t).view.emb j) 0) mm) := by
    intro mm
    show V m c main_v0 (((cfg0.win 0).blk t).view.emb (ix2 (j 0) mm)) = _
    refine congrArg _ (funext fun a => Fin.ext ?_)
    match a with
    | ⟨0, _⟩ => show win0_0.index t (0 : Fin 2) * 4096 + 1 * (j 0).val = win0_2.index t (0 : Fin 2) * 4096 + 1 * (j 0).val; omega
    | ⟨1, _⟩ => show win0_0.index t (1 : Fin 2) * 256 + 1 * mm.val = mm.val; omega
  have hh : ∀ a b : Fin 256, iblk m c 1 t (ix2 a b) = V m c main_v1 (ix2 a b) := by
    intro a b
    show V m c main_v1 (((cfg0.win 1).blk t).view.emb (ix2 a b)) = _
    refine congrArg _ (funext fun d => Fin.ext ?_)
    match d with
    | ⟨0, _⟩ => show win0_1.index t (0 : Fin 2) * 256 + 1 * a.val = a.val; omega
    | ⟨1, _⟩ => show win0_1.index t (1 : Fin 2) * 256 + 1 * b.val = b.val; omega
  have hq : (((cfg0.win 2).blk t).view.emb j) 1 = j 1 :=
    Fin.ext (show win0_2.index t (1 : Fin 2) * 256 + 1 * (j 1).val = (j 1).val by omega)
  rw [hq]
  simp only [hx, hh]
  exact Finset.sum_congr rfl fun k _ => congrArg (_ * ·) (hh k (j 1))

/-- An index of the array is in point `t`'s block iff each coordinate is in the block's range on its axis. -/
theorem mem_blk (t : Fin cfg0.N) (i : S262144x256.Idx) :
    i ∈ ((cfg0.win 2).blk t).view.set ↔ ∀ a : Fin 2, win0_2.index t a * S4096x256.size a ≤ (i a).val ∧ (i a).val < win0_2.index t a * S4096x256.size a + S4096x256.size a := by
  show i ∈ ((View.whole main_v2).slice (win0_2.rect t)).set ↔ _
  rw [View.set_slice_whole, Rect.mem_set_unit]
  exact Iff.rfl

/-- Every index of the output array is in the block of the point `row / 4096`. -/
theorem cover (i : S262144x256.Idx) :
    ∃ t : Fin cfg0.N, (cfg0.win 2).flush t = true ∧ i ∈ ((cfg0.win 2).blk t).view.set := by
  have hi0 : (i 0).val < 262144 := (i 0).isLt
  have hi1 : (i 1).val < 256 := (i 1).isLt
  have hN : cfg0.N = 64 := N_0
  let t : Fin cfg0.N := ⟨(i 0).val / 4096, by rw [hN]; omega⟩
  have ht : t.val = (i 0).val / 4096 := rfl
  obtain ⟨e0, e1, e2, e3, e4, e5⟩ := idx_facts t
  refine ⟨t, flush0_2 t, ?_⟩
  rw [mem_blk]
  intro a
  match a with
  | ⟨0, _⟩ => show win0_2.index t (0 : Fin 2) * 4096 ≤ (i 0).val ∧ (i 0).val < win0_2.index t (0 : Fin 2) * 4096 + 4096; omega
  | ⟨1, _⟩ => show win0_2.index t (1 : Fin 2) * 256 ≤ (i 1).val ∧ (i 1).val < win0_2.index t (1 : Fin 2) * 256 + 256; omega

/-- THE OUTPUT ARRAY after the region. -/
theorem final (c : Dev nD) : (dats m 0 c).arrAt 2 cfg0.N = rows (V m c main_v0) (V m c main_v1) :=
  (dats m 0 c).arrAt_eq_of_cover 2 (rows (V m c main_v0) (V m c main_v1)) (fun t _ => flushed_eq m c t) cover

/-! ## The host lines before the region -/

/-- The region finds the first argument flattened to 262144 rows, -/
theorem V_flat (c : Dev nD) : (V m c main_v0 : FVec Ideal S262144x256 .f32)
    = shapeCast S262144x256 (m ((c : Thread nD τ).loc main_arg0)) shapeCasts_S16x64x256x256_S262144x256 := by
  show StableHlo.after hostOps0 (fun b => m (c, b)) (Proc.devRef .tc main_v0) = _
  after_results
  rfl
/-- and the matrix narrowed to bf16, which at the ideal instance is the matrix. -/
theorem V_mat (c : Dev nD) : (V m c main_v1 : FVec Ideal S256x256 .bf16)
    = (m ((c : Thread nD τ).loc main_arg1) : FVec Ideal S256x256 .f32) := by
  show StableHlo.after hostOps0 (fun b => m (c, b)) (Proc.devRef .tc main_v1) = _
  after_results
  rfl

/-! ## The flattened output, cut back into matrices -/

/-- Row (b·64 + c)·256 + i of the flattened output is row `i` of matrix (b, c) of `HaarSpec.result`. -/
theorem rows_unflatten (x : FVec Ideal S16x64x256x256 .f32) (h : FVec Ideal S256x256 .f32) :
    shapeCast S16x64x256x256
        (rows (shapeCast S262144x256 x shapeCasts_S16x64x256x256_S262144x256) h) shapeCasts_S262144x256_S16x64x256x256
      = Cert.HaarSpec.result x h := by
  funext i
  have h0 : (i 0).val < 16 := (i 0).isLt
  have h1 : (i 1).val < 64 := (i 1).isLt
  have h2 : (i 2).val < 256 := (i 2).isLt
  have h3 : (i 3).val < 256 := (i 3).isLt
  let r : Fin 262144 := ⟨((i 0).val * 64 + (i 1).val) * 256 + (i 2).val, by omega⟩
  rw [shapeCast_apply _ shapeCasts_S262144x256_S16x64x256x256 i (ix2 r (i 3))
    (by rewrite [Shape.rowMajor_val_two, Shape.rowMajor_val_four]; rfl)]
  unfold rows Cert.HaarSpec.result
  refine Finset.sum_congr rfl fun k _ => ?_
  refine congrArg (· * _) (Finset.sum_congr rfl fun mm _ => ?_)
  refine congrArg (· * _) ?_
  exact shapeCast_apply x shapeCasts_S16x64x256x256_S262144x256 (ix2 r mm) (ix4 (i 0) (i 1) (i 2) mm)
    (by rewrite [Shape.rowMajor_val_four, Shape.rowMajor_val_two]; rfl)

/-! ## The host lines after the region -/

/-- THE KERNEL'S RESULT: the lines after the region cut the flattened output back into matrices and apply the
    common re-layout; what they re-lay is `HaarSpec.result` of the two argument arrays. -/
theorem tail_eq (c : Dev nD) :
    Pipeline.afterTail₀ cfgs (dats m) 0 (V0 m) [hostOps1] c main_v7
      = Cert.HaarSpec.relayout transposes_S16x64x256x256_S16x256x64x256_0_2_1_3 shapeCasts_S16x256x64x256_S16x256x16384
          shapeCasts_S16x256x16384_S16x64x256x256 slices_S16x64x256x256_S16x64x128x128_0_0_0_0
          (Cert.HaarSpec.result (m ((c : Thread nD τ).loc main_arg0)) (m ((c : Thread nD τ).loc main_arg1))) := by
  unfold Pipeline.afterTail₀
  show StableHlo.after hostOps1 _ (Proc.devRef .tc main_v7) = _
  after_results
  have e : Pipeline.withArrays (cfgs 0).spec c (V0 m c) (fun w => (dats m 0 c).arrAt w (cfgs 0).N) (Proc.devRef .tc main_v2)
      = rows (V m c main_v0) (V m c main_v1) :=
    (Pipeline.withArrays_arr spec0 launch0.win.arr_inj c _ _ 2).trans (final m c)
  rw [e, V_flat, V_mat, ← rows_unflatten]
  rfl

/-- THE KERNEL'S RUN, read: every weakly fair execution ends with the result array at the common re-layout of
    `HaarSpec.result` of the arguments, and the arguments as launched. -/
theorem run : θ_run defs (onTc (τ := τ) (main (F := Ideal))) ⟨m, fun _ => 0, ρ⟩ fun r => ∀ c : Dev nD,
      r.2.mem ((c.tc : Thread nD τ).loc main_v7)
        = Cert.HaarSpec.relayout transposes_S16x64x256x256_S16x256x64x256_0_2_1_3 shapeCasts_S16x256x64x256_S16x256x16384
            shapeCasts_S16x256x16384_S16x64x256x256 slices_S16x64x256x256_S16x64x128x128_0_0_0_0
            (Cert.HaarSpec.result (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v7 (Pipeline.mem_restRefs_of main_v7 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.HaarValue

end
-- ==== Proof.RefValue.lean ====
/-
  The reference, read at an index.

  The reference scales every entry of `x` by `(|x| + 1) / (|x| + 1)`, forms `h · h` once (as the product that
  contracts the first operand's rows with the second's columns, which is the transpose of the square, read back
  transposed by the second product), multiplies every row of the scaled `x` by it, and applies the common re-layout.
  For arguments with real entries the array it re-lays is `HaarSpec.result x h`.
-/
import proofs.«136611_j31817117729481_1_alg».proof.Proof.Gen.ReferenceIdeal.Read
import proofs.«136611_j31817117729481_1_alg».proof.Proof.Spec
import Idealize.ShloMosaic.Lib.IdealHost

noncomputable section

namespace Cert.ReferenceIdeal.HaarRef

open Idealize.ShloMosaic Idealize.ShloMosaic.ValueIdx
open Cert.ReferenceIdeal Cert.ReferenceIdeal.Gen Cert.ReferenceIdeal.Read

/-! ## The products' operand indices, as coordinates -/

/-- The second product reads the scaled `x` along its last axis, -/
theorem lidx9 (i : S16x64x256x256.Idx) (k : Fin 256) : lidx_main_v9 i k = ix4 (i 0) (i 1) (i 2) k :=
  funext fun a => Fin.ext (by
    match a with
    | ⟨0, _⟩ => rfl
    | ⟨1, _⟩ => rfl
    | ⟨2, _⟩ => rfl
    | ⟨3, _⟩ => rfl)
/-- and the first product's result at (column, contracted index). -/
theorem ridx9 (i : S16x64x256x256.Idx) (k : Fin 256) : ridx_main_v9 i k = ix2 (i 3) k :=
  funext fun a => Fin.ext (by
    match a with
    | ⟨0, _⟩ => rfl
    | ⟨1, _⟩ => rfl)
/-- The first product at (a, b) sums `h (k, a) * h (b, k)` over `k`. -/
theorem lidx8 (j : S256x256.Idx) (k : Fin 256) : lidx_main_v8 j k = ix2 k (j 0) :=
  funext fun a => Fin.ext (by
    match a with
    | ⟨0, _⟩ => rfl
    | ⟨1, _⟩ => rfl)
theorem ridx8 (j : S256x256.Idx) (k : Fin 256) : ridx_main_v8 j k = ix2 (j 1) k :=
  funext fun a => Fin.ext (by
    match a with
    | ⟨0, _⟩ => rfl
    | ⟨1, _⟩ => rfl)

/-! ## The two factors, at an index -/

/-- The broadcast constant is the extended real one. -/
theorem one_at (j : S16x64x256x256.Idx) : val_main_v1 (F := Ideal) j = (1 : EReal) := by
  rw [val_main_v1_apply, val_main_cst_apply]
  exact Ideal.ofBits_one_f32
theorem one_at' (j : S16x64x256x256.Idx) : val_main_v4 (F := Ideal) j = (1 : EReal) := by
  rw [val_main_v4_apply, val_main_cst_0_apply]
  exact Ideal.ofBits_one_f32

/-- The scaled input at an index: the entry times `(|entry| + 1) / (|entry| + 1)`. -/
theorem scaled_at (x : FVec Ideal S16x64x256x256 .f32) (j : S16x64x256x256.Idx) :
    val_main_v7 (F := Ideal) x j = x j * Ideal.div (max (x j) (-(x j)) + 1) (max (x j) (-(x j)) + 1) := by
  rw [val_main_v7_apply, val_main_v6_apply, val_main_v2_apply, val_main_v5_apply, val_main_v0_apply, val_main_v3_apply,
    one_at, one_at']
  rfl

/-- The first product at (a, b): the sum over `k` of `h (k, a) * h (b, k)`. -/
theorem square_at (h : FVec Ideal S256x256 .f32) (j : S256x256.Idx) :
    val_main_v8 (F := Ideal) h j = ∑ k : Fin 256, h (ix2 k (j 0)) * h (ix2 (j 1) k) := by
  rw [val_main_v8_apply]
  exact Finset.sum_congr rfl fun k _ => by rw [lidx8, ridx8]; rfl

/-- THE ARRAY THE REFERENCE RE-LAYS, for arguments with real entries: every matrix of `x` times `h` twice. -/
theorem product_eq (x : FVec Ideal S16x64x256x256 .f32) (h : FVec Ideal S256x256 .f32)
    (hx : ∀ i, ∃ r : ℝ, x i = (r : EReal)) (hh : ∀ i, ∃ r : ℝ, h i = (r : EReal)) :
    val_main_v9 (F := Ideal) x h = Cert.HaarSpec.result x h := by
  funext i
  rw [val_main_v9_apply]
  refine Eq.trans (Finset.sum_congr rfl fun k _ => ?_) (Cert.HaarSpec.reference_at x h hx hh i)
  rw [scaled_at, square_at, lidx9, ridx9]
  rfl

/-- THE REFERENCE'S RESULT: the common re-layout of `HaarSpec.result`. -/
theorem result_eq (x : FVec Ideal S16x64x256x256 .f32) (h : FVec Ideal S256x256 .f32)
    (hx : ∀ i, ∃ r : ℝ, x i = (r : EReal)) (hh : ∀ i, ∃ r : ℝ, h i = (r : EReal)) :
    val_main_v13 (F := Ideal) x h
      = Cert.HaarSpec.relayout transposes_S16x64x256x256_S16x256x64x256_0_2_1_3 shapeCasts_S16x256x64x256_S16x256x16384
          shapeCasts_S16x256x16384_S16x64x256x256 slices_S16x64x256x256_S16x64x128x128_0_0_0_0
          (Cert.HaarSpec.result x h) := by
  unfold val_main_v13 val_main_v12 val_main_v11 val_main_v10
  rw [product_eq x h hx hh]
  rfl

end Cert.ReferenceIdeal.HaarRef

end
-- ==== Proof.Finite.lean ====
/-
  The precondition read back: every entry of both arguments is a real number.

  The printed predicate is the conjunction of two `jnp.all`s, one per argument, of `|entry| < +∞`. A conjunction of
  two bits that is 1 has both at 1; an and-reduction over every axis that is 1 met a 1 at every index; and an extended
  real whose absolute value is below `+∞` is neither infinity.
-/
import proofs.«136611_j31817117729481_1_alg».proof.Pre_finite_inputs
import proofs.«136611_j31817117729481_1_alg».proof.Proof.Gen.Pre_finite_inputs
import proofs.«136611_j31817117729481_1_alg».proof.Proof.Spec
import Idealize.ShloMosaic.Lib.ReduceAll
import Idealize.ShloMosaic.Lib.ValueIdx

noncomputable section

namespace Cert.HaarFinite

open Idealize.ShloMosaic

/-- The rank-0 shape has one index. -/
instance : Subsingleton Cert.Pre_finite_inputs.S_.Idx := ⟨fun a b => funext fun d => d.elim0⟩

/-- Under the precondition both arguments hold real numbers only. -/
theorem real_entries (x : FVec Ideal Cert.Pre_finite_inputs.S16x64x256x256 .f32) (h : FVec Ideal Cert.Pre_finite_inputs.S256x256 .f32)
    (hp : Cert.Pre_finite_inputs.fn (F := Ideal) x h = fun _ => 1#1) :
    (∀ i, ∃ r : ℝ, x i = (r : EReal)) ∧ (∀ i, ∃ r : ℝ, h i = (r : EReal)) := by
  have h0 := congrFun hp ValueIdx.ix0
  dsimp only [Cert.Pre_finite_inputs.fn] at h0
  have h1 : IntOp.andi _ _ = 1#1 := h0
  obtain ⟨ha, hb⟩ := IntOp.andi_eq_one.1 h1
  refine ⟨fun i => ?_, fun i => ?_⟩
  · have e := Host.reduce_andi_all _ _ _ _ _ ha i
    exact Cert.HaarSpec.real_of_abs_lt_inf (x i) e
  · have e := Host.reduce_andi_all _ _ _ _ _ hb i
    exact Cert.HaarSpec.real_of_abs_lt_inf (h i) e

end Cert.HaarFinite

end
-- ==== Proof.lean ====
/-
  The kernel flattens `x : f32[16, 64, 256, 256]` to 262144 rows of 256, and on a grid of 64 points multiplies each
  block of 4096 rows by the 256 × 256 matrix `h` twice, `(x · h) · h` (operands narrowed to bf16, accumulation in f32),
  then cuts the rows back into matrices and re-lays them out (two middle axes exchanged, flattened, cut again as
  [16, 64, 256, 256], the top-left 128 × 128 quadrant of every matrix kept). The reference scales `x` by
  `(|x| + 1) / (|x| + 1)`, multiplies every row by the square `h · h` formed once, and applies the same re-layout.

  Over the extended reals the narrowings are the identity and a product is the plain sum over the contracted axis.
  The two orders of the double sum and the cancelling quotient need entries that are real numbers (distributivity and
  `a / a = 1` fail at an infinity): that is what the precondition gives (Proof/Finite.lean). For real entries both
  programs end with the common re-layout of ONE array, `HaarSpec.result x h` (Proof/Spec.lean; the law is
  Proof/RealLaw.lean): the kernel by its blocks (Proof/Payload.lean, Proof/KernelArray.lean), the reference read at an
  index (Proof/RefValue.lean). The re-layout is applied to equal arrays and is never opened.
  The three frames are the kernel's generated frames and the reference's generated run; the idealization rewrote
  nothing, so `preserves` is `True`.
-/
import proofs.«136611_j31817117729481_1_alg».proof.Defs
import proofs.«136611_j31817117729481_1_alg».proof.Proof.Gen.Kernel
import proofs.«136611_j31817117729481_1_alg».proof.Proof.Gen.Kernel.Skeleton
import proofs.«136611_j31817117729481_1_alg».proof.Proof.Gen.Kernel.Launch
import proofs.«136611_j31817117729481_1_alg».proof.Proof.Gen.Kernel.Points
import proofs.«136611_j31817117729481_1_alg».proof.Proof.Gen.Kernel.Frame
import proofs.«136611_j31817117729481_1_alg».proof.Proof.Gen.KernelIdeal
import proofs.«136611_j31817117729481_1_alg».proof.Proof.Gen.KernelIdeal.Skeleton
import proofs.«136611_j31817117729481_1_alg».proof.Proof.Gen.KernelIdeal.Launch
import proofs.«136611_j31817117729481_1_alg».proof.Proof.Gen.KernelIdeal.Points
import proofs.«136611_j31817117729481_1_alg».proof.Proof.Gen.KernelIdeal.Frame
import proofs.«136611_j31817117729481_1_alg».proof.Proof.Gen.ReferenceIdeal
import proofs.«136611_j31817117729481_1_alg».proof.Proof.Gen.ReferenceIdeal.Run
import proofs.«136611_j31817117729481_1_alg».proof.Proof.Gen.ReferenceIdeal.Read
import proofs.«136611_j31817117729481_1_alg».proof.Proof.Gen.Pre_finite_inputs
import proofs.«136611_j31817117729481_1_alg».proof.Proof.KernelArray
import proofs.«136611_j31817117729481_1_alg».proof.Proof.RefValue
import proofs.«136611_j31817117729481_1_alg».proof.Proof.Finite
import Idealize.ShloMosaic.Adequacy
import Idealize.ShloMosaic.Init

noncomputable section

namespace Cert.Proof

open Idealize.ShloMosaic Idealize.SL.Sem

/-- The word-level kernel runs and keeps its arguments: the generated frame. -/
theorem frame_k : Cert.frame_Kernel := fun m ρ _ => Cert.Kernel.Gen.frame m ρ
/-- The idealized kernel likewise. -/
theorem frame_ki : Cert.frame_KernelIdeal := fun m ρ _ => Cert.KernelIdeal.Gen.frame m ρ
/-- The reference is host operations only: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments, both programs end with the common re-layout of
    `HaarSpec.result` of the kernel's arguments: the kernel by its blocks and its host tail, the reference by its
    products read at an index, the precondition making every entry a real number. -/
theorem algebraic : Cert.algebraic_KernelIdeal_ReferenceIdeal := by
  intro m ρ m' ρ' hpre hagree
  refine ⟨_, Cert.KernelIdeal.HaarValue.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hh⟩ := Cert.HaarFinite.real_entries _ _ (hpre c)
  rw [(hagree c).1, (hagree c).2]
  exact (Cert.ReferenceIdeal.Read.val_main_v13_eq _ _).trans (Cert.ReferenceIdeal.HaarRef.result_eq _ _ hx hh)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
